-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x784 : Shape := ⟨2, ![64, 784]⟩
abbrev S_ : Shape := ⟨0, ![]⟩

class Facts : Prop where
  bcast_S_S64x784 : S_.BroadcastsInDim S64x784 (![] : Fin 0 → Fin S64x784.rank)
  reducesTo_S64x784_S_d0_1 : S64x784.ReducesTo [0, 1] S_
  h_S_ : 0 < S_.numel

variable [Facts]

def fn {F : FTy → Type} [FloatOps F] (main_arg0 : FVec F S64x784 .f32) : IVec S_ 1 :=
  let main_v0 : FVec F S64x784 .f32 := Host.absf main_arg0
  let main_cst : FVec F S_ .f32 := constant S_ .f32 0x7F800000#32
  let main_v1 : FVec F S64x784 .f32 := broadcastInDim S64x784 ![] bcast_S_S64x784 main_cst
  let main_v2 : IVec S64x784 1 := cmpf .olt main_v0 main_v1
  let main_c : IVec S_ 1 := constantI S_ 1 1#1
  let main_v3 : IVec S_ 1 := (fun x v => Host.reduce IntOp.andi x v reducesTo_S64x784_S_d0_1 h_S_) main_v2 main_c
  main_v3
-- ==== Kernel.lean ====
abbrev S64x784 : Shape := ⟨2, ![64, 784]⟩
abbrev S_ : Shape := ⟨0, ![]⟩
abbrev S64x1001 : Shape := ⟨2, ![64, 1001]⟩
abbrev S64 : Shape := ⟨1, ![64]⟩
abbrev S64x1 : Shape := ⟨2, ![64, 1]⟩
abbrev S64x1001x1001 : Shape := ⟨3, ![64, 1001, 1001]⟩
abbrev S64x256 : Shape := ⟨2, ![64, 256]⟩
abbrev S64x256x256 : Shape := ⟨3, ![64, 256, 256]⟩
abbrev S64x256x1 : Shape := ⟨3, ![64, 256, 1]⟩
abbrev S64x1x256 : Shape := ⟨3, ![64, 1, 256]⟩

abbrev nBuf : Space → Nat
  | .hbm => 12
  | .vmem => 6
  | .smem => 0
  | _ => 0

abbrev bufTy : (tb : Table) → Fin (tcTables nBuf tb) → BufTy
  | .hbm, ⟨0, _⟩ => ⟨S64x784, .f32⟩
  | .hbm, ⟨1, _⟩ => ⟨S_, .i32⟩
  | .hbm, ⟨2, _⟩ => ⟨S_, .f32⟩
  | .hbm, ⟨3, _⟩ => ⟨S64x1001, .f32⟩
  | .hbm, ⟨4, _⟩ => ⟨S64x1001, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S64x1001, .f32⟩
  | .hbm, ⟨10, _⟩ => ⟨S64x1001, .f32⟩
  | .hbm, ⟨11, _⟩ => ⟨S64x1001x1001, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256x256, .f32⟩
  | .local _ .vmem, ⟨5, _⟩ => ⟨S64x256x256, .f32⟩
  | _, _ => ⟨S64x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_call1_v0 : Ref sig .tc := ⟨.hbm, 4, rfl⟩
abbrev main_call1_cst : Ref sig .tc := ⟨.hbm, 5, rfl⟩
abbrev main_call1_v1 : Ref sig .tc := ⟨.hbm, 6, rfl⟩
abbrev main_call1_v2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S64x784_S64x1001_000_02170 : S64x784.Pads (![0, 0] : Fin 2 → Nat) ![0, 217] ![0, 0] S64x1001
  h_S_ : 0 < S_.numel
  reducesTo_S64x1001_S64_d1 : S64x1001.ReducesTo [1] S64
  bcast_S64_S64x1_0 : S64.BroadcastsInDim S64x1 (![0] : Fin 1 → Fin S64x1.rank)
  bcast_S64x1_S64x1001_0_1 : S64x1.BroadcastsInDim S64x1001 (![0, 1] : Fin 2 → Fin S64x1001.rank)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S64x256_S64x256x1 : S64x256.ShapeCasts S64x256x1
  shapeCasts_S64x256_S64x1x256 : S64x256.ShapeCasts S64x1x256
  broadcasts_S64x256x1_S64x256x256 : S64x256x1.Broadcasts S64x256x256
  broadcasts_S64x1x256_S64x256x256 : S64x1x256.Broadcasts S64x256x256
  inb_S64x256x256_S64x256x256_0_0_0 : ∀ a, (![0, 0, 0] : Fin 3 → Nat) a + S64x256x256.size a ≤ S64x256x256.size a
  h_S64x256x256 : 0 < S64x256x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x256.size a < S64x1001.size a
  hwx0_0 : ∀ i : grid0.Coords, EltTy.bits .f32 = 32 ∨ (Rect.unit (s := S64x1001) (fun a => cc0_transform_0 i a * S64x256.size a) (fun a => (Pipeline.Clip.of (cc0_transform_0 i a) (S64x256.size a) (S64x1001.size a)).extent (S64x256.size a)) fun a => Pipeline.Clip.inb (Pipeline.Clip.ok_of (hstart0_0 i a))).WholeWords (EltTy.packing .f32)
  hwxs0_0 : ∀ i : grid0.Coords, EltTy.bits .f32 = 32 ∨ (Rect.unit (s := S64x256) (fun _ => 0) (fun a => (Pipeline.Clip.of (cc0_transform_0 i a) (S64x256.size a) (S64x1001.size a)).extent (S64x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x256.size a < S64x1001.size a
  hwx0_1 : ∀ i : grid0.Coords, EltTy.bits .f32 = 32 ∨ (Rect.unit (s := S64x1001) (fun a => cc0_transform_1 i a * S64x256.size a) (fun a => (Pipeline.Clip.of (cc0_transform_1 i a) (S64x256.size a) (S64x1001.size a)).extent (S64x256.size a)) fun a => Pipeline.Clip.inb (Pipeline.Clip.ok_of (hstart0_1 i a))).WholeWords (EltTy.packing .f32)
  hwxs0_1 : ∀ i : grid0.Coords, EltTy.bits .f32 = 32 ∨ (Rect.unit (s := S64x256) (fun _ => 0) (fun a => (Pipeline.Clip.of (cc0_transform_1 i a) (S64x256.size a) (S64x1001.size a)).extent (S64x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x256x256.size a < S64x1001x1001.size a
  hwx0_2 : ∀ i : grid0.Coords, EltTy.bits .f32 = 32 ∨ (Rect.unit (s := S64x1001x1001) (fun a => cc0_transform_2 i a * S64x256x256.size a) (fun a => (Pipeline.Clip.of (cc0_transform_2 i a) (S64x256x256.size a) (S64x1001x1001.size a)).extent (S64x256x256.size a)) fun a => Pipeline.Clip.inb (Pipeline.Clip.ok_of (hstart0_2 i a))).WholeWords (EltTy.packing .f32)
  hwxs0_2 : ∀ i : grid0.Coords, EltTy.bits .f32 = 32 ∨ (Rect.unit (s := S64x256x256) (fun _ => 0) (fun a => (Pipeline.Clip.of (cc0_transform_2 i a) (S64x256x256.size a) (S64x1001x1001.size a)).extent (S64x256x256.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_v3) S64x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v3) S64x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v4) S64x256x256.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x784 : Shape := ⟨2, ![64, 784]⟩
abbrev S_ : Shape := ⟨0, ![]⟩
abbrev S64x1001 : Shape := ⟨2, ![64, 1001]⟩
abbrev S64 : Shape := ⟨1, ![64]⟩
abbrev S64x1 : Shape := ⟨2, ![64, 1]⟩
abbrev S64x1001x1 : Shape := ⟨3, ![64, 1001, 1]⟩
abbrev S64x1x1001 : Shape := ⟨3, ![64, 1, 1001]⟩
abbrev S64x1001x1001 : Shape := ⟨3, ![64, 1001, 1001]⟩

abbrev nBuf : Space → Nat
  | .hbm => 16
  | .vmem => 0
  | .smem => 0
  | _ => 0

abbrev bufTy : (tb : Table) → Fin (tcTables nBuf tb) → BufTy
  | .hbm, ⟨0, _⟩ => ⟨S64x784, .f32⟩
  | .hbm, ⟨1, _⟩ => ⟨S_, .i32⟩
  | .hbm, ⟨2, _⟩ => ⟨S_, .f32⟩
  | .hbm, ⟨3, _⟩ => ⟨S64x1001, .f32⟩
  | .hbm, ⟨4, _⟩ => ⟨S64x1001, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S64x1001, .f32⟩
  | .hbm, ⟨10, _⟩ => ⟨S64x1001, .f32⟩
  | .hbm, ⟨11, _⟩ => ⟨S64x1001x1, .f32⟩
  | .hbm, ⟨12, _⟩ => ⟨S64x1x1001, .f32⟩
  | .hbm, ⟨13, _⟩ => ⟨S64x1001x1001, .f32⟩
  | .hbm, ⟨14, _⟩ => ⟨S64x1001x1001, .f32⟩
  | .hbm, ⟨15, _⟩ => ⟨S64x1001x1001, .f32⟩
  | _, _ => ⟨S64x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_call1_v0 : Ref sig .tc := ⟨.hbm, 4, rfl⟩
abbrev main_call1_cst : Ref sig .tc := ⟨.hbm, 5, rfl⟩
abbrev main_call1_v1 : Ref sig .tc := ⟨.hbm, 6, rfl⟩
abbrev main_call1_v2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  pads_S64x784_S64x1001_000_02170 : S64x784.Pads (![0, 0] : Fin 2 → Nat) ![0, 217] ![0, 0] S64x1001
  h_S_ : 0 < S_.numel
  reducesTo_S64x1001_S64_d1 : S64x1001.ReducesTo [1] S64
  bcast_S64_S64x1_0 : S64.BroadcastsInDim S64x1 (![0] : Fin 1 → Fin S64x1.rank)
  bcast_S64x1_S64x1001_0_1 : S64x1.BroadcastsInDim S64x1001 (![0, 1] : Fin 2 → Fin S64x1001.rank)
  bcast_S64x1001_S64x1001x1_0_1 : S64x1001.BroadcastsInDim S64x1001x1 (![0, 1] : Fin 2 → Fin S64x1001x1.rank)
  bcast_S64x1001_S64x1x1001_0_2 : S64x1001.BroadcastsInDim S64x1x1001 (![0, 2] : Fin 2 → Fin S64x1x1001.rank)
  bcast_S64x1001x1_S64x1001x1001_0_1_2 : S64x1001x1.BroadcastsInDim S64x1001x1001 (![0, 1, 2] : Fin 3 → Fin S64x1001x1001.rank)
  bcast_S64x1x1001_S64x1001x1001_0_1_2 : S64x1x1001.BroadcastsInDim S64x1001x1001 (![0, 1, 2] : Fin 3 → Fin S64x1001x1001.rank)

variable [Facts₀]

class Facts : Prop extends Facts₀ where

variable [Facts]
-- ==== Proof.Kernel.Blocks.lean ====
/-
  The outer-product kernel's pipeline, point by point (any float instance).

  @main first builds the normalized state `s = pad(x) / ‖pad(x)‖` (an array [64, 1001]) by host operations and then
  launches one kernel over a 4 × 4 grid. At grid point (i, j) the kernel reads TWO blocks of the SAME array `s` —
  columns 256·i … of it through its first window and columns 256·j … through its second — and writes block (i, j) of the
  result [64, 1001, 1001]. Since 1001 = 3·256 + 233, the blocks of index 3 overhang the arrays: only their first 233
  columns are moved, and the rest of a staging buffer holds words nobody names.

  This module fixes what every staging buffer holds at every point: the two input buffers hold their block of `s` on the
  part that is moved (whether the pipeline fetched at that point or kept the buffer from the point before), and the
  result's buffer holds the products of what the two input buffers hold.
-/
import proofs.«135654_j33603824124046_1_alg».proof.Proof.Gen.Kernel.Launch
import proofs.«135654_j33603824124046_1_alg».proof.Proof.Gen.Kernel.Skeleton
import proofs.«135654_j33603824124046_1_alg».proof.Proof.Gen.Kernel.Points
import Idealize.ShloMosaic.Lib.Pipeline.FrameBody
import Idealize.ShloMosaic.Lib.Tactic

set_option maxRecDepth 16384

noncomputable section

namespace Cert.Kernel.Outer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the kernel is launched -/

/-- Core `c`'s buffers when the kernel region is entered: the launch contents after the host operations that
    build the normalized state. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main runs its host operations and reaches the kernel region with the buffers at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-! ## The blocks -/

/-- Window `w`'s block at point `t`, read off its array as the region finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A staging buffer holding that block on the moved part and `d` past the array's end. -/
def staged (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The filler this proof names past the array's end (nothing reads it): some word. -/
def pad0 (w : Fin cfg0.W) : (cfg0.win w).block.Idx → Elt F (cfg0.win w).elt := fun _ => Classical.arbitrary _

/-! ## What the body's one store leaves in the result's buffer -/

abbrev rIn : Rect S64x256 := Rect.unit (s := S64x256) ![0, 0] S64x256.size inb_S64x256_S64x256_0_0
abbrev rOut : Rect S64x256x256 := Rect.unit (s := S64x256x256) ![0, 0, 0] S64x256x256.size inb_S64x256x256_S64x256x256_0_0_0

/-- The result's staging buffer after the body, from what the two input buffers hold: the one store's payload,
    the products of the first buffer's entries with the second's. -/
def outBlk (x0 x1 : Vec F S64x256 .f32) : Vec F S64x256x256 .f32 :=
  View.canon [⟨rOut, k0_pay1 (View.ld x0 rIn) (View.ld x1 rIn)⟩]

/-- The store writes the whole buffer. -/
theorem cover_out (p0 : Vec F S64x256x256 .f32) (y : S64x256x256.Idx) :
    ∃ pc ∈ ([⟨rOut, p0⟩] : List (View.Piece (Elt F) S64x256x256 .f32)), y ∈ pc.1.set :=
  View.cover_of_tiled [⟨rOut, p0⟩] S64x256x256.size (by rfl) y

/-! ## The pipeline's proof data -/

/-- On core `c`: the arrays as the region finds them; after the body at point `t` the two input buffers at their
    blocks (some word past the array's end) and the result's buffer at their products. The array `s` is read through
    two windows: each holds half of it. Nothing is owed and nothing is kept between points but the buffers. -/
def dats (_ : Fin 1) (c : Dev nD) : Dat τ (Elt F) Unit ℕ (UR sig nD τ) ℕ cfg0 c where
  A w := V m c (Pipeline.arrRef spec0 w)
  after w t := match w with
    | ⟨0, _⟩ => staged m c 0 t (pad0 0)
    | ⟨1, _⟩ => staged m c 1 t (pad0 1)
    | ⟨2, _⟩ => outBlk (staged m c 0 t (pad0 0)) (staged m c 1 t (pad0 1))
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = staged m c 0 t (pad0 0) := by dsimp only [dats]
theorem after_1 (c : Dev nD) (t : Fin cfg0.N) : (dats m 0 c).after 1 t = staged m c 1 t (pad0 1) := by dsimp only [dats]
theorem after_2 (c : Dev nD) (t : Fin cfg0.N) :
    (dats m 0 c).after 2 t = outBlk (staged m c 0 t (pad0 0)) (staged m c 1 t (pad0 1)) := by dsimp only [dats]

/-- The cut of a window's block is decided by its block index. -/
theorem clip_of_index (w : Fin cfg0.W) (t t' : Fin cfg0.N) (h : (cfg0.win w).index t = (cfg0.win w).index t') :
    (cfg0.win w).clip (cfg0.grid.coords t) = (cfg0.win w).clip (cfg0.grid.coords t') := by
  funext a
  match w with
  | ⟨0, _⟩ => exact congrArg (fun k => Pipeline.Clip.of k _ _) (congrFun h a)
  | ⟨1, _⟩ => exact congrArg (fun k => Pipeline.Clip.of k _ _) (congrFun h a)
  | ⟨2, _⟩ => exact congrArg (fun k => Pipeline.Clip.of k _ _) (congrFun h a)

/-- An input buffer holds its block at every point, fetched there or kept from the point before (then the block
    index has not moved). -/
theorem before_0 (c : Dev nD) (t : Fin cfg0.N) (d) : (dats m 0 c).before 0 t d = staged m c 0 t d :=
  ((dats m 0 c).before_in_eq_fetched 0 rfl (fun _ => rfl) (clip_of_index 0)
    (fun t => by rw [after_0]; unfold staged Dat.blockOf iblk; rw [A_eq]; exact (cfg0.win 0).cut_fill _ _ _) t d).trans
    (by unfold Dat.fetched Dat.blockOf staged iblk; rw [A_eq])

theorem before_1 (c : Dev nD) (t : Fin cfg0.N) (d) : (dats m 0 c).before 1 t d = staged m c 1 t d :=
  ((dats m 0 c).before_in_eq_fetched 1 rfl (fun _ => rfl) (clip_of_index 1)
    (fun t => by rw [after_1]; unfold staged Dat.blockOf iblk; rw [A_eq]; exact (cfg0.win 1).cut_fill _ _ _) t d).trans
    (by unfold Dat.fetched Dat.blockOf staged iblk; rw [A_eq])

/-- The result's buffer is written back at every point: the body finds it holding anything. -/
theorem before_2 (c : Dev nD) (t : Fin cfg0.N) (d) : (dats m 0 c).before 2 t d = d := by
  refine (dats m 0 c).before_out_reset 2 rfl t ?_ d
  by_cases h0 : t.val = 0
  · exact .inl h0
  · exact .inr ⟨h0, flush0_2 _⟩

end Cert.Kernel.Outer

end
-- ==== Proof.Kernel.Payload.lean ====
/-
  The body's one payload read at an index (any float instance): the result block's entry (b, p, q) is the product
  of the first input block's entry (b, p) with the second's entry (b, q) — an outer product per batch row b. The
  layout steps around the product only rename coordinates: the first block is viewed as [64, 256, 1] and repeated
  along the last axis, the second as [64, 1, 256] and repeated along the middle axis.
-/
import proofs.«135654_j33603824124046_1_alg».proof.Proof.Gen.Kernel.Skeleton
import Idealize.ShloMosaic.Lib.Pipeline.Value
import Idealize.ShloMosaic.Lib.ValueIdx

noncomputable section

namespace Cert.Kernel.Outer

open Cert.Kernel Cert.Kernel.Gen
open Idealize.ShloMosaic Idealize.ShloMosaic.ValueIdx

variable {F : FTy → Type} [FloatOps F]
variable {α : Type}

/-- A [64, 256] block viewed as [64, 256, 1] reads, at (b, p, u), the block at (b, p). -/
theorem col_view_apply (x : S64x256.Idx → α) (h : S64x256.ShapeCasts S64x256x1) (b : Fin 64) (p : Fin 256) (u : Fin 1) :
    shapeCast S64x256x1 x h (ix3 b p u) = x (ix2 b p) :=
  shapeCast_apply x h _ _ (by
    have hu : u.val = 0 := by omega
    rw [Shape.rowMajor_val_three, Shape.rowMajor_val_two]
    show b.val * 256 + p.val = (b.val * 256 + p.val) * 1 + u.val
    omega)

/-- A [64, 256] block viewed as [64, 1, 256] reads, at (b, u, q), the block at (b, q). -/
theorem row_view_apply (x : S64x256.Idx → α) (h : S64x256.ShapeCasts S64x1x256) (b : Fin 64) (u : Fin 1) (q : Fin 256) :
    shapeCast S64x1x256 x h (ix3 b u q) = x (ix2 b q) :=
  shapeCast_apply x h _ _ (by
    have hu : u.val = 0 := by omega
    rw [Shape.rowMajor_val_three, Shape.rowMajor_val_two]
    show b.val * 256 + q.val = (b.val * 1 + u.val) * 256 + q.val
    omega)

/-- [64, 256, 1] repeated along its last axis reads, at (b, p, q), the operand at (b, p, 0). -/
theorem col_repeat_apply (v : S64x256x1.Idx → α) (h : S64x256x1.Broadcasts S64x256x256) (b : Fin 64) (p q : Fin 256) :
    broadcastTo S64x256x256 v h (ix3 b p q) = v (ix3 b p (0 : Fin 1)) := by
  refine broadcastTo_apply v h (ix3 b p q) (ix3 b p (0 : Fin 1)) fun ax => ?_
  match ax with
  | ⟨0, _⟩ => show b.val = if (64 : Nat) = 1 then 0 else b.val; rw [if_neg (by decide)]
  | ⟨1, _⟩ => show p.val = if (256 : Nat) = 1 then 0 else p.val; rw [if_neg (by decide)]
  | ⟨2, _⟩ => show 0 = if (1 : Nat) = 1 then 0 else q.val; rw [if_pos rfl]

/-- [64, 1, 256] repeated along its middle axis reads, at (b, p, q), the operand at (b, 0, q). -/
theorem row_repeat_apply (v : S64x1x256.Idx → α) (h : S64x1x256.Broadcasts S64x256x256) (b : Fin 64) (p q : Fin 256) :
    broadcastTo S64x256x256 v h (ix3 b p q) = v (ix3 b (0 : Fin 1) q) := by
  refine broadcastTo_apply v h (ix3 b p q) (ix3 b (0 : Fin 1) q) fun ax => ?_
  match ax with
  | ⟨0, _⟩ => show b.val = if (64 : Nat) = 1 then 0 else b.val; rw [if_neg (by decide)]
  | ⟨1, _⟩ => show 0 = if (1 : Nat) = 1 then 0 else p.val; rw [if_pos rfl]
  | ⟨2, _⟩ => show q.val = if (256 : Nat) = 1 then 0 else q.val; rw [if_neg (by decide)]

/-- The payload at (b, p, q): the product of the first block at (b, p) and the second at (b, q). -/
theorem pay_apply (v0 v2 : Vec F S64x256 .f32) (b : Fin 64) (p q : Fin 256) :
    k0_pay1 v0 v2 (ix3 b p q) = FloatOps.mulf (v0 (ix2 b p)) (v2 (ix2 b q)) := by
  unfold k0_pay1
  show FloatOps.mulf (broadcastTo S64x256x256 _ _ (ix3 b p q)) (broadcastTo S64x256x256 _ _ (ix3 b p q)) = _
  rw [col_repeat_apply, row_repeat_apply, col_view_apply, row_view_apply, shapeCast_self, shapeCast_self]

end Cert.Kernel.Outer

end
-- ==== Proof.Kernel.Product.lean ====
/-
  What the result's staging buffer holds, entry by entry, and why only the moved parts of the input buffers matter
  (any float instance): entry (b, p, q) of the result block is the product of the first input buffer's entry (b, p)
  and the second's entry (b, q). At a grid point (i, j) the result block is cut, on its middle axis, exactly where
  the first input block (block index i) is cut, and on its last axis exactly where the second (block index j) is:
  so the part of the result block that is written back is computed from the parts of the input blocks that were
  fetched, and the words past the arrays' ends never reach the result array.
-/
import proofs.«135654_j33603824124046_1_alg».proof.Proof.Kernel.Blocks
import proofs.«135654_j33603824124046_1_alg».proof.Proof.Kernel.Payload

set_option maxRecDepth 16384

noncomputable section

namespace Cert.Kernel.Outer

open Cert.Kernel Cert.Kernel.Gen
open Idealize.ShloMosaic Idealize.ShloMosaic.TcCoe Idealize.ShloMosaic.ValueIdx
open Idealize.SL.Sem
open Idealize.ShloMosaic.Pipeline (Dat Cfg Window)

variable {F : FTy → Type} [FloatOps F]

variable (m : (ℓ : Loc nD τ sig) → Buf (Elt F) ℓ)

/-- The result buffer's entry (b, p, q): the product of the input buffers' entries (b, p) and (b, q). -/
theorem outBlk_apply (x0 x1 : Vec F S64x256 .f32) (b : Fin 64) (p q : Fin 256) :
    outBlk x0 x1 (ix3 b p q) = FloatOps.mulf (x0 (ix2 b p)) (x1 (ix2 b q)) := by
  have hz3 : (![0, 0, 0] : Fin 3 → Nat) = fun _ => 0 := funext fun a => by
    match a with | ⟨0, _⟩ => rfl | ⟨1, _⟩ => rfl | ⟨2, _⟩ => rfl
  have hz2 : (![0, 0] : Fin 2 → Nat) = fun _ => 0 := funext fun a => by
    match a with | ⟨0, _⟩ => rfl | ⟨1, _⟩ => rfl
  unfold outBlk
  rw [View.canon_unit_zero hz3, pay_apply, View.ld_unit_zero (S := S64x256) hz2, View.ld_unit_zero (S := S64x256) hz2]

/-- Two pairs of input buffers that agree at (b, p) and at (b, q) give the same result entry (b, p, q). -/
theorem outBlk_congr (x0 x0' x1 x1' : Vec F S64x256 .f32) (j : S64x256x256.Idx)
    (h0 : x0 (ix2 (j 0) (j 1)) = x0' (ix2 (j 0) (j 1))) (h1 : x1 (ix2 (j 0) (j 2)) = x1' (ix2 (j 0) (j 2))) :
    outBlk x0 x1 j = outBlk x0' x1' j := by
  obtain ⟨b, p, q, rfl⟩ : ∃ (b : Fin 64) (p q : Fin 256), j = ix3 b p q := ⟨j 0, j 1, j 2, eq_ix3 j⟩
  rw [outBlk_apply, outBlk_apply]
  exact congrArg₂ FloatOps.mulf h0 h1

/-- On the part a window's transfers move, a staged buffer holds the block whatever fills the rest. -/
theorem staged_of_moved (c : Dev nD) (w : Fin cfg0.W) (t : Fin cfg0.N) (d d' : (cfg0.win w).block.Idx → Elt F (cfg0.win w).elt)
    (j : (cfg0.win w).block.Idx) (h : (cfg0.win w).moved (cfg0.grid.coords t) j = true) :
    staged m c w t d j = staged m c w t d' j := by
  unfold staged Window.fill; rw [dif_pos h, dif_pos h]

/-- At an entry of the moved part a staged buffer holds the block's entry. -/
theorem staged_xinj (c : Dev nD) (w : Fin cfg0.W) (t : Fin cfg0.N) (d : (cfg0.win w).block.Idx → Elt F (cfg0.win w).elt)
    (y : ((cfg0.win w).xblock (cfg0.grid.coords t)).Idx) :
    staged m c w t d ((cfg0.win w).xinj (cfg0.grid.coords t) y) = iblk m c w t y :=
  (cfg0.win w).fill_xinj _ _ _ y

theorem cut_staged (c : Dev nD) (w : Fin cfg0.W) (t : Fin cfg0.N) (d : (cfg0.win w).block.Idx → Elt F (cfg0.win w).elt) :
    (cfg0.win w).cut (cfg0.grid.coords t) (staged m c w t d) = iblk m c w t :=
  (cfg0.win w).cut_fill _ _ _

/-- The part of the result block that is written back does not depend on what fills the input buffers past the
    arrays' ends. -/
theorem cut_outBlk (c : Dev nD) (t : Fin cfg0.N) (d0 d0' : (cfg0.win 0).block.Idx → Elt F (cfg0.win 0).elt)
    (d1 d1' : (cfg0.win 1).block.Idx → Elt F (cfg0.win 1).elt) :
    (cfg0.win 2).cut (cfg0.grid.coords t) (outBlk (staged m c 0 t d0) (staged m c 1 t d1))
      = (cfg0.win 2).cut (cfg0.grid.coords t) (outBlk (staged m c 0 t d0') (staged m c 1 t d1')) := by
  funext y
  refine outBlk_congr _ _ _ _ ((cfg0.win 2).xinj (cfg0.grid.coords t) y) ?_ ?_
  · refine staged_of_moved m c 0 t d0 d0' _ (((cfg0.win 0).moved_iff _ _).mpr fun a => ?_)
    match a with
    | ⟨0, _⟩ => exact (y 0).isLt
    | ⟨1, _⟩ => exact (y 1).isLt
  · refine staged_of_moved m c 1 t d1 d1' _ (((cfg0.win 1).moved_iff _ _).mpr fun a => ?_)
    match a with
    | ⟨0, _⟩ => exact (y 0).isLt
    | ⟨1, _⟩ => exact (y 2).isLt

end Cert.Kernel.Outer

end
-- ==== Proof.Kernel.Body.lean ====
/-
  The kernel body at one grid point (any float instance): it loads the two input staging buffers whole, loads the
  result's buffer (a value nothing uses), and stores the products over the whole of the result's buffer. The two
  input buffers are left as found; the result's buffer ends holding `outBlk` of them, whatever it held.
  From this, the obligation the pipeline asks at every point: all three windows may overhang their arrays, so each
  buffer is stated only on the part its transfers move.
-/
import proofs.«135654_j33603824124046_1_alg».proof.Proof.Kernel.Product

set_option maxRecDepth 16384

noncomputable section

namespace Cert.Kernel.Outer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging memrefs: the inputs' at read contents `x0`, `x1`, the result's at anything. -/
theorem sound_kernel (c : Dev nD) (E : Set ℕ) (i : grid0.Coords)
    (arg2 : Memref sig .tc .vmem S64x256 .f32) (harg2 : arg2.IsWhole)
    (arg3 : Memref sig .tc .vmem S64x256 .f32) (harg3 : arg3.IsWhole)
    (arg4 : Memref sig .tc .vmem S64x256x256 .f32) (harg4 : arg4.IsWhole)
    (x0 x1 : Vec F S64x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlk x0 x1)) -∗ K ⟨⟩))
      ⊢ wp frame (wpE (defs₀ (F := F)) Variants.none c none) E (cc0__outer_kernel i arg2 harg2 arg3 harg3 arg4 harg4) K := by
  simp only [cc0__outer_kernel_eq_skeleton]; unfold cc0__outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The pipeline's obligation at every point: the input buffers arrive holding their blocks on the moved part and
    leave unchanged; the result's buffer leaves holding the products, which on its moved part are the products of
    the input BLOCKS, whatever filled the input buffers past the arrays' ends (`cut_outBlk`). -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (staged m c 0 t d0) (staged m c 1 t d1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    have e : (win0 0).fill (grid0.coords t) d0 ((win0 0).cut (grid0.coords t) (staged m c 0 t (pad0 0))) = staged m c 0 t d0 :=
      congrArg ((win0 0).fill (grid0.coords t) d0) (cut_staged m c 0 t (pad0 0))
    rw [after_0, e]
    iexact H0
  isplitl [H1]
  · iexists d1
    have e : (win0 1).fill (grid0.coords t) d1 ((win0 1).cut (grid0.coords t) (staged m c 1 t (pad0 1))) = staged m c 1 t d1 :=
      congrArg ((win0 1).fill (grid0.coords t) d1) (cut_staged m c 1 t (pad0 1))
    rw [after_1, e]
    iexact H1
  · iexists outBlk (staged m c 0 t d0) (staged m c 1 t d1)
    rw [after_2, (cfg0.win 2).fill_congr_cut (cfg0.grid.coords t) (cut_outBlk m c t d0 (pad0 0) d1 (pad0 1))]
    iexact H2

end Cert.Kernel.Outer

end
-- ==== Proof.Kernel.Launch.lean ====
/-
  The run of the outer-product program (any float instance): from any memory with all counters at zero, @main's host
  operations and then the kernel region run to the end on every fair schedule, nothing faults, the result array ends
  at what the pipeline's write-backs compute from the proof data, and every buffer the kernel does not stage — the
  program's argument among them — ends as the region found it.

  The array of the normalized state is handed to the kernel through TWO input windows. The launch therefore deals
  its one full share in two halves, one to each window; both windows only read it.
-/
import proofs.«135654_j33603824124046_1_alg».proof.Proof.Kernel.Body

set_option maxRecDepth 16384

noncomputable section

namespace Cert.Kernel.Outer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are the state's and the result's. -/
theorem arr_image : (Finset.univ.image (Pipeline.arrRef spec0) : Finset (Ref sig .tc)) = [main_v3, main_v4].toFinset := by decide

/-- The state's array, whole, splits into the two halves the two input windows hold; the result's array goes to
    the output window whole. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_v3, main_v4] arr_image (by decide), bigSep_W0]
  have e0 : (((cfg0.win 0).arr.view.loc (c : Thread nD τ) ↦[(cfg0.win 0).arr.view.set]{(dats m 0 c).share 0} (dats m 0 c).arrAt 0 0) : sProp 𝕄)
      = (((c : Thread nD τ).loc main_v3) ↦{fullShare.left} V m c main_v3) := by
    rw [(arr_whole0 0).set_eq_univ]; rfl
  have e1 : (((cfg0.win 1).arr.view.loc (c : Thread nD τ) ↦[(cfg0.win 1).arr.view.set]{(dats m 0 c).share 1} (dats m 0 c).arrAt 1 0) : sProp 𝕄)
      = (((c : Thread nD τ).loc main_v3) ↦{fullShare.right} V m c main_v3) := by
    rw [(arr_whole0 1).set_eq_univ]; rfl
  have e2 : (((cfg0.win 2).arr.view.loc (c : Thread nD τ) ↦[(cfg0.win 2).arr.view.set]{(dats m 0 c).share 2} (dats m 0 c).arrAt 2 0) : sProp 𝕄)
      = (((c : Thread nD τ).loc main_v4) ↦{fullShare} V m c main_v4) := by
    rw [(arr_whole0 2).set_eq_univ]; rfl
  rw [e0, e1, e2]
  refine (show iprop((((c : Thread nD τ).loc main_v3) ↦{fullShare} V m c main_v3)
      ∗ (((c : Thread nD τ).loc main_v4) ↦{fullShare} V m c main_v4)) ⊢ _ from ?_)
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- What the run ends in: the windows' arrays at what the write-backs leave, every other unscoped buffer as the
    region found it. -/
abbrev Post : PUnit × MemSt nD τ sig (Elt F) → Prop := Pipeline.FramePost cfgs (dats m) 0 (V m)

set_option backward.isDefEq.respectTransparency.types false in
/-- Every fair run of the program from zero counters ends, without a fault, in `Post`. -/
theorem run_main : θ_run defs (onTc (τ := τ) (main (F := F))) (s₀ m ρ) (Post m) :=
  Pipeline.θ_run_region_noSem_shared cfgs (dats m) () cellOf_inj (0 : Fin 1) winFacts₀0 emb₁ defs₀ Variants.none m ρ main
    (hbody := body_obligation m)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (Idealize.ShloMosaic.pointsTo_read_all (Pipeline.restRefs sig spec0) (fun b => (c : Thread nD τ).loc b) (V m c) s')
      isplitl [HU] <;> iassumption)
    (hQ := fun s h => h)

/-- No host operation before the region writes the program's argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 rfl (by decide))).trans (V_main_arg0 m c)) (run_main m ρ)

end Cert.Kernel.Outer

end
-- ==== Proof.KernelIdeal.Blocks.lean ====
/-
  The outer-product kernel's pipeline, point by point (any float instance).

  @main first builds the normalized state `s = pad(x) / ‖pad(x)‖` (an array [64, 1001]) by host operations and then
  launches one kernel over a 4 × 4 grid. At grid point (i, j) the kernel reads TWO blocks of the SAME array `s` —
  columns 256·i … of it through its first window and columns 256·j … through its second — and writes block (i, j) of the
  result [64, 1001, 1001]. Since 1001 = 3·256 + 233, the blocks of index 3 overhang the arrays: only their first 233
  columns are moved, and the rest of a staging buffer holds words nobody names.

  This module fixes what every staging buffer holds at every point: the two input buffers hold their block of `s` on the
  part that is moved (whether the pipeline fetched at that point or kept the buffer from the point before), and the
  result's buffer holds the products of what the two input buffers hold.
-/
import proofs.«135654_j33603824124046_1_alg».proof.Proof.Gen.KernelIdeal.Launch
import proofs.«135654_j33603824124046_1_alg».proof.Proof.Gen.KernelIdeal.Skeleton
import proofs.«135654_j33603824124046_1_alg».proof.Proof.Gen.KernelIdeal.Points
import Idealize.ShloMosaic.Lib.Pipeline.FrameBody
import Idealize.ShloMosaic.Lib.Tactic

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the kernel is launched -/

/-- Core `c`'s buffers when the kernel region is entered: the launch contents after the host operations that
    build the normalized state. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main runs its host operations and reaches the kernel region with the buffers at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-! ## The blocks -/

/-- Window `w`'s block at point `t`, read off its array as the region finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A staging buffer holding that block on the moved part and `d` past the array's end. -/
def staged (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The filler this proof names past the array's end (nothing reads it): some word. -/
def pad0 (w : Fin cfg0.W) : (cfg0.win w).block.Idx → Elt F (cfg0.win w).elt := fun _ => Classical.arbitrary _

/-! ## What the body's one store leaves in the result's buffer -/

abbrev rIn : Rect S64x256 := Rect.unit (s := S64x256) ![0, 0] S64x256.size inb_S64x256_S64x256_0_0
abbrev rOut : Rect S64x256x256 := Rect.unit (s := S64x256x256) ![0, 0, 0] S64x256x256.size inb_S64x256x256_S64x256x256_0_0_0

/-- The result's staging buffer after the body, from what the two input buffers hold: the one store's payload,
    the products of the first buffer's entries with the second's. -/
def outBlk (x0 x1 : Vec F S64x256 .f32) : Vec F S64x256x256 .f32 :=
  View.canon [⟨rOut, k0_pay1 (View.ld x0 rIn) (View.ld x1 rIn)⟩]

/-- The store writes the whole buffer. -/
theorem cover_out (p0 : Vec F S64x256x256 .f32) (y : S64x256x256.Idx) :
    ∃ pc ∈ ([⟨rOut, p0⟩] : List (View.Piece (Elt F) S64x256x256 .f32)), y ∈ pc.1.set :=
  View.cover_of_tiled [⟨rOut, p0⟩] S64x256x256.size (by rfl) y

/-! ## The pipeline's proof data -/

/-- On core `c`: the arrays as the region finds them; after the body at point `t` the two input buffers at their
    blocks (some word past the array's end) and the result's buffer at their products. The array `s` is read through
    two windows: each holds half of it. Nothing is owed and nothing is kept between points but the buffers. -/
def dats (_ : Fin 1) (c : Dev nD) : Dat τ (Elt F) Unit ℕ (UR sig nD τ) ℕ cfg0 c where
  A w := V m c (Pipeline.arrRef spec0 w)
  after w t := match w with
    | ⟨0, _⟩ => staged m c 0 t (pad0 0)
    | ⟨1, _⟩ => staged m c 1 t (pad0 1)
    | ⟨2, _⟩ => outBlk (staged m c 0 t (pad0 0)) (staged m c 1 t (pad0 1))
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = staged m c 0 t (pad0 0) := by dsimp only [dats]
theorem after_1 (c : Dev nD) (t : Fin cfg0.N) : (dats m 0 c).after 1 t = staged m c 1 t (pad0 1) := by dsimp only [dats]
theorem after_2 (c : Dev nD) (t : Fin cfg0.N) :
    (dats m 0 c).after 2 t = outBlk (staged m c 0 t (pad0 0)) (staged m c 1 t (pad0 1)) := by dsimp only [dats]

/-- The cut of a window's block is decided by its block index. -/
theorem clip_of_index (w : Fin cfg0.W) (t t' : Fin cfg0.N) (h : (cfg0.win w).index t = (cfg0.win w).index t') :
    (cfg0.win w).clip (cfg0.grid.coords t) = (cfg0.win w).clip (cfg0.grid.coords t') := by
  funext a
  match w with
  | ⟨0, _⟩ => exact congrArg (fun k => Pipeline.Clip.of k _ _) (congrFun h a)
  | ⟨1, _⟩ => exact congrArg (fun k => Pipeline.Clip.of k _ _) (congrFun h a)
  | ⟨2, _⟩ => exact congrArg (fun k => Pipeline.Clip.of k _ _) (congrFun h a)

/-- An input buffer holds its block at every point, fetched there or kept from the point before (then the block
    index has not moved). -/
theorem before_0 (c : Dev nD) (t : Fin cfg0.N) (d) : (dats m 0 c).before 0 t d = staged m c 0 t d :=
  ((dats m 0 c).before_in_eq_fetched 0 rfl (fun _ => rfl) (clip_of_index 0)
    (fun t => by rw [after_0]; unfold staged Dat.blockOf iblk; rw [A_eq]; exact (cfg0.win 0).cut_fill _ _ _) t d).trans
    (by unfold Dat.fetched Dat.blockOf staged iblk; rw [A_eq])

theorem before_1 (c : Dev nD) (t : Fin cfg0.N) (d) : (dats m 0 c).before 1 t d = staged m c 1 t d :=
  ((dats m 0 c).before_in_eq_fetched 1 rfl (fun _ => rfl) (clip_of_index 1)
    (fun t => by rw [after_1]; unfold staged Dat.blockOf iblk; rw [A_eq]; exact (cfg0.win 1).cut_fill _ _ _) t d).trans
    (by unfold Dat.fetched Dat.blockOf staged iblk; rw [A_eq])

/-- The result's buffer is written back at every point: the body finds it holding anything. -/
theorem before_2 (c : Dev nD) (t : Fin cfg0.N) (d) : (dats m 0 c).before 2 t d = d := by
  refine (dats m 0 c).before_out_reset 2 rfl t ?_ d
  by_cases h0 : t.val = 0
  · exact .inl h0
  · exact .inr ⟨h0, flush0_2 _⟩

end Cert.KernelIdeal.Outer

end
-- ==== Proof.KernelIdeal.Payload.lean ====
/-
  The body's one payload read at an index (any float instance): the result block's entry (b, p, q) is the product
  of the first input block's entry (b, p) with the second's entry (b, q) — an outer product per batch row b. The
  layout steps around the product only rename coordinates: the first block is viewed as [64, 256, 1] and repeated
  along the last axis, the second as [64, 1, 256] and repeated along the middle axis.
-/
import proofs.«135654_j33603824124046_1_alg».proof.Proof.Gen.KernelIdeal.Skeleton
import Idealize.ShloMosaic.Lib.Pipeline.Value
import Idealize.ShloMosaic.Lib.ValueIdx

noncomputable section

namespace Cert.KernelIdeal.Outer

open Cert.KernelIdeal Cert.KernelIdeal.Gen
open Idealize.ShloMosaic Idealize.ShloMosaic.ValueIdx

variable {F : FTy → Type} [FloatOps F]
variable {α : Type}

/-- A [64, 256] block viewed as [64, 256, 1] reads, at (b, p, u), the block at (b, p). -/
theorem col_view_apply (x : S64x256.Idx → α) (h : S64x256.ShapeCasts S64x256x1) (b : Fin 64) (p : Fin 256) (u : Fin 1) :
    shapeCast S64x256x1 x h (ix3 b p u) = x (ix2 b p) :=
  shapeCast_apply x h _ _ (by
    have hu : u.val = 0 := by omega
    rw [Shape.rowMajor_val_three, Shape.rowMajor_val_two]
    show b.val * 256 + p.val = (b.val * 256 + p.val) * 1 + u.val
    omega)

/-- A [64, 256] block viewed as [64, 1, 256] reads, at (b, u, q), the block at (b, q). -/
theorem row_view_apply (x : S64x256.Idx → α) (h : S64x256.ShapeCasts S64x1x256) (b : Fin 64) (u : Fin 1) (q : Fin 256) :
    shapeCast S64x1x256 x h (ix3 b u q) = x (ix2 b q) :=
  shapeCast_apply x h _ _ (by
    have hu : u.val = 0 := by omega
    rw [Shape.rowMajor_val_three, Shape.rowMajor_val_two]
    show b.val * 256 + q.val = (b.val * 1 + u.val) * 256 + q.val
    omega)

/-- [64, 256, 1] repeated along its last axis reads, at (b, p, q), the operand at (b, p, 0). -/
theorem col_repeat_apply (v : S64x256x1.Idx → α) (h : S64x256x1.Broadcasts S64x256x256) (b : Fin 64) (p q : Fin 256) :
    broadcastTo S64x256x256 v h (ix3 b p q) = v (ix3 b p (0 : Fin 1)) := by
  refine broadcastTo_apply v h (ix3 b p q) (ix3 b p (0 : Fin 1)) fun ax => ?_
  match ax with
  | ⟨0, _⟩ => show b.val = if (64 : Nat) = 1 then 0 else b.val; rw [if_neg (by decide)]
  | ⟨1, _⟩ => show p.val = if (256 : Nat) = 1 then 0 else p.val; rw [if_neg (by decide)]
  | ⟨2, _⟩ => show 0 = if (1 : Nat) = 1 then 0 else q.val; rw [if_pos rfl]

/-- [64, 1, 256] repeated along its middle axis reads, at (b, p, q), the operand at (b, 0, q). -/
theorem row_repeat_apply (v : S64x1x256.Idx → α) (h : S64x1x256.Broadcasts S64x256x256) (b : Fin 64) (p q : Fin 256) :
    broadcastTo S64x256x256 v h (ix3 b p q) = v (ix3 b (0 : Fin 1) q) := by
  refine broadcastTo_apply v h (ix3 b p q) (ix3 b (0 : Fin 1) q) fun ax => ?_
  match ax with
  | ⟨0, _⟩ => show b.val = if (64 : Nat) = 1 then 0 else b.val; rw [if_neg (by decide)]
  | ⟨1, _⟩ => show 0 = if (1 : Nat) = 1 then 0 else p.val; rw [if_pos rfl]
  | ⟨2, _⟩ => show q.val = if (256 : Nat) = 1 then 0 else q.val; rw [if_neg (by decide)]

/-- The payload at (b, p, q): the product of the first block at (b, p) and the second at (b, q). -/
theorem pay_apply (v0 v2 : Vec F S64x256 .f32) (b : Fin 64) (p q : Fin 256) :
    k0_pay1 v0 v2 (ix3 b p q) = FloatOps.mulf (v0 (ix2 b p)) (v2 (ix2 b q)) := by
  unfold k0_pay1
  show FloatOps.mulf (broadcastTo S64x256x256 _ _ (ix3 b p q)) (broadcastTo S64x256x256 _ _ (ix3 b p q)) = _
  rw [col_repeat_apply, row_repeat_apply, col_view_apply, row_view_apply, shapeCast_self, shapeCast_self]

end Cert.KernelIdeal.Outer

end
-- ==== Proof.KernelIdeal.Product.lean ====
/-
  What the result's staging buffer holds, entry by entry, and why only the moved parts of the input buffers matter
  (any float instance): entry (b, p, q) of the result block is the product of the first input buffer's entry (b, p)
  and the second's entry (b, q). At a grid point (i, j) the result block is cut, on its middle axis, exactly where
  the first input block (block index i) is cut, and on its last axis exactly where the second (block index j) is:
  so the part of the result block that is written back is computed from the parts of the input blocks that were
  fetched, and the words past the arrays' ends never reach the result array.
-/
import proofs.«135654_j33603824124046_1_alg».proof.Proof.KernelIdeal.Blocks
import proofs.«135654_j33603824124046_1_alg».proof.Proof.KernelIdeal.Payload

set_option maxRecDepth 16384

noncomputable section

namespace Cert.KernelIdeal.Outer

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (m : (ℓ : Loc nD τ sig) → Buf (Elt F) ℓ)

/-- The result buffer's entry (b, p, q): the product of the input buffers' entries (b, p) and (b, q). -/
theorem outBlk_apply (x0 x1 : Vec F S64x256 .f32) (b : Fin 64) (p q : Fin 256) :
    outBlk x0 x1 (ix3 b p q) = FloatOps.mulf (x0 (ix2 b p)) (x1 (ix2 b q)) := by
  have hz3 : (![0, 0, 0] : Fin 3 → Nat) = fun _ => 0 := funext fun a => by
    match a with | ⟨0, _⟩ => rfl | ⟨1, _⟩ => rfl | ⟨2, _⟩ => rfl
  have hz2 : (![0, 0] : Fin 2 → Nat) = fun _ => 0 := funext fun a => by
    match a with | ⟨0, _⟩ => rfl | ⟨1, _⟩ => rfl
  unfold outBlk
  rw [View.canon_unit_zero hz3, pay_apply, View.ld_unit_zero (S := S64x256) hz2, View.ld_unit_zero (S := S64x256) hz2]

/-- Two pairs of input buffers that agree at (b, p) and at (b, q) give the same result entry (b, p, q). -/
theorem outBlk_congr (x0 x0' x1 x1' : Vec F S64x256 .f32) (j : S64x256x256.Idx)
    (h0 : x0 (ix2 (j 0) (j 1)) = x0' (ix2 (j 0) (j 1))) (h1 : x1 (ix2 (j 0) (j 2)) = x1' (ix2 (j 0) (j 2))) :
    outBlk x0 x1 j = outBlk x0' x1' j := by
  obtain ⟨b, p, q, rfl⟩ : ∃ (b : Fin 64) (p q : Fin 256), j = ix3 b p q := ⟨j 0, j 1, j 2, eq_ix3 j⟩
  rw [outBlk_apply, outBlk_apply]
  exact congrArg₂ FloatOps.mulf h0 h1

/-- On the part a window's transfers move, a staged buffer holds the block whatever fills the rest. -/
theorem staged_of_moved (c : Dev nD) (w : Fin cfg0.W) (t : Fin cfg0.N) (d d' : (cfg0.win w).block.Idx → Elt F (cfg0.win w).elt)
    (j : (cfg0.win w).block.Idx) (h : (cfg0.win w).moved (cfg0.grid.coords t) j = true) :
    staged m c w t d j = staged m c w t d' j := by
  unfold staged Window.fill; rw [dif_pos h, dif_pos h]

/-- At an entry of the moved part a staged buffer holds the block's entry. -/
theorem staged_xinj (c : Dev nD) (w : Fin cfg0.W) (t : Fin cfg0.N) (d : (cfg0.win w).block.Idx → Elt F (cfg0.win w).elt)
    (y : ((cfg0.win w).xblock (cfg0.grid.coords t)).Idx) :
    staged m c w t d ((cfg0.win w).xinj (cfg0.grid.coords t) y) = iblk m c w t y :=
  (cfg0.win w).fill_xinj _ _ _ y

theorem cut_staged (c : Dev nD) (w : Fin cfg0.W) (t : Fin cfg0.N) (d : (cfg0.win w).block.Idx → Elt F (cfg0.win w).elt) :
    (cfg0.win w).cut (cfg0.grid.coords t) (staged m c w t d) = iblk m c w t :=
  (cfg0.win w).cut_fill _ _ _

/-- The part of the result block that is written back does not depend on what fills the input buffers past the
    arrays' ends. -/
theorem cut_outBlk (c : Dev nD) (t : Fin cfg0.N) (d0 d0' : (cfg0.win 0).block.Idx → Elt F (cfg0.win 0).elt)
    (d1 d1' : (cfg0.win 1).block.Idx → Elt F (cfg0.win 1).elt) :
    (cfg0.win 2).cut (cfg0.grid.coords t) (outBlk (staged m c 0 t d0) (staged m c 1 t d1))
      = (cfg0.win 2).cut (cfg0.grid.coords t) (outBlk (staged m c 0 t d0') (staged m c 1 t d1')) := by
  funext y
  refine outBlk_congr _ _ _ _ ((cfg0.win 2).xinj (cfg0.grid.coords t) y) ?_ ?_
  · refine staged_of_moved m c 0 t d0 d0' _ (((cfg0.win 0).moved_iff _ _).mpr fun a => ?_)
    match a with
    | ⟨0, _⟩ => exact (y 0).isLt
    | ⟨1, _⟩ => exact (y 1).isLt
  · refine staged_of_moved m c 1 t d1 d1' _ (((cfg0.win 1).moved_iff _ _).mpr fun a => ?_)
    match a with
    | ⟨0, _⟩ => exact (y 0).isLt
    | ⟨1, _⟩ => exact (y 2).isLt

end Cert.KernelIdeal.Outer

end
-- ==== Proof.KernelIdeal.Body.lean ====
/-
  The kernel body at one grid point (any float instance): it loads the two input staging buffers whole, loads the
  result's buffer (a value nothing uses), and stores the products over the whole of the result's buffer. The two
  input buffers are left as found; the result's buffer ends holding `outBlk` of them, whatever it held.
  From this, the obligation the pipeline asks at every point: all three windows may overhang their arrays, so each
  buffer is stated only on the part its transfers move.
-/
import proofs.«135654_j33603824124046_1_alg».proof.Proof.KernelIdeal.Product

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging memrefs: the inputs' at read contents `x0`, `x1`, the result's at anything. -/
theorem sound_kernel (c : Dev nD) (E : Set ℕ) (i : grid0.Coords)
    (arg2 : Memref sig .tc .vmem S64x256 .f32) (harg2 : arg2.IsWhole)
    (arg3 : Memref sig .tc .vmem S64x256 .f32) (harg3 : arg3.IsWhole)
    (arg4 : Memref sig .tc .vmem S64x256x256 .f32) (harg4 : arg4.IsWhole)
    (x0 x1 : Vec F S64x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlk x0 x1)) -∗ K ⟨⟩))
      ⊢ wp frame (wpE (defs₀ (F := F)) Variants.none c none) E (cc0__outer_kernel i arg2 harg2 arg3 harg3 arg4 harg4) K := by
  simp only [cc0__outer_kernel_eq_skeleton]; unfold cc0__outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The pipeline's obligation at every point: the input buffers arrive holding their blocks on the moved part and
    leave unchanged; the result's buffer leaves holding the products, which on its moved part are the products of
    the input BLOCKS, whatever filled the input buffers past the arrays' ends (`cut_outBlk`). -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (staged m c 0 t d0) (staged m c 1 t d1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    have e : (win0 0).fill (grid0.coords t) d0 ((win0 0).cut (grid0.coords t) (staged m c 0 t (pad0 0))) = staged m c 0 t d0 :=
      congrArg ((win0 0).fill (grid0.coords t) d0) (cut_staged m c 0 t (pad0 0))
    rw [after_0, e]
    iexact H0
  isplitl [H1]
  · iexists d1
    have e : (win0 1).fill (grid0.coords t) d1 ((win0 1).cut (grid0.coords t) (staged m c 1 t (pad0 1))) = staged m c 1 t d1 :=
      congrArg ((win0 1).fill (grid0.coords t) d1) (cut_staged m c 1 t (pad0 1))
    rw [after_1, e]
    iexact H1
  · iexists outBlk (staged m c 0 t d0) (staged m c 1 t d1)
    rw [after_2, (cfg0.win 2).fill_congr_cut (cfg0.grid.coords t) (cut_outBlk m c t d0 (pad0 0) d1 (pad0 1))]
    iexact H2

end Cert.KernelIdeal.Outer

end
-- ==== Proof.KernelIdeal.Launch.lean ====
/-
  The run of the outer-product program (any float instance): from any memory with all counters at zero, @main's host
  operations and then the kernel region run to the end on every fair schedule, nothing faults, the result array ends
  at what the pipeline's write-backs compute from the proof data, and every buffer the kernel does not stage — the
  program's argument among them — ends as the region found it.

  The array of the normalized state is handed to the kernel through TWO input windows. The launch therefore deals
  its one full share in two halves, one to each window; both windows only read it.
-/
import proofs.«135654_j33603824124046_1_alg».proof.Proof.KernelIdeal.Body

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are the state's and the result's. -/
theorem arr_image : (Finset.univ.image (Pipeline.arrRef spec0) : Finset (Ref sig .tc)) = [main_v3, main_v4].toFinset := by decide

/-- The state's array, whole, splits into the two halves the two input windows hold; the result's array goes to
    the output window whole. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_v3, main_v4] arr_image (by decide), bigSep_W0]
  have e0 : (((cfg0.win 0).arr.view.loc (c : Thread nD τ) ↦[(cfg0.win 0).arr.view.set]{(dats m 0 c).share 0} (dats m 0 c).arrAt 0 0) : sProp 𝕄)
      = (((c : Thread nD τ).loc main_v3) ↦{fullShare.left} V m c main_v3) := by
    rw [(arr_whole0 0).set_eq_univ]; rfl
  have e1 : (((cfg0.win 1).arr.view.loc (c : Thread nD τ) ↦[(cfg0.win 1).arr.view.set]{(dats m 0 c).share 1} (dats m 0 c).arrAt 1 0) : sProp 𝕄)
      = (((c : Thread nD τ).loc main_v3) ↦{fullShare.right} V m c main_v3) := by
    rw [(arr_whole0 1).set_eq_univ]; rfl
  have e2 : (((cfg0.win 2).arr.view.loc (c : Thread nD τ) ↦[(cfg0.win 2).arr.view.set]{(dats m 0 c).share 2} (dats m 0 c).arrAt 2 0) : sProp 𝕄)
      = (((c : Thread nD τ).loc main_v4) ↦{fullShare} V m c main_v4) := by
    rw [(arr_whole0 2).set_eq_univ]; rfl
  rw [e0, e1, e2]
  refine (show iprop((((c : Thread nD τ).loc main_v3) ↦{fullShare} V m c main_v3)
      ∗ (((c : Thread nD τ).loc main_v4) ↦{fullShare} V m c main_v4)) ⊢ _ from ?_)
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- What the run ends in: the windows' arrays at what the write-backs leave, every other unscoped buffer as the
    region found it. -/
abbrev Post : PUnit × MemSt nD τ sig (Elt F) → Prop := Pipeline.FramePost cfgs (dats m) 0 (V m)

set_option backward.isDefEq.respectTransparency.types false in
/-- Every fair run of the program from zero counters ends, without a fault, in `Post`. -/
theorem run_main : θ_run defs (onTc (τ := τ) (main (F := F))) (s₀ m ρ) (Post m) :=
  Pipeline.θ_run_region_noSem_shared cfgs (dats m) () cellOf_inj (0 : Fin 1) winFacts₀0 emb₁ defs₀ Variants.none m ρ main
    (hbody := body_obligation m)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (Idealize.ShloMosaic.pointsTo_read_all (Pipeline.restRefs sig spec0) (fun b => (c : Thread nD τ).loc b) (V m c) s')
      isplitl [HU] <;> iassumption)
    (hQ := fun s h => h)

/-- No host operation before the region writes the program's argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 rfl (by decide))).trans (V_main_arg0 m c)) (run_main m ρ)

end Cert.KernelIdeal.Outer

end
-- ==== Proof.KernelIdeal.Value.lean ====
/-
  The result array after the run, in closed form (any float instance): it is the outer product of the normalized
  state `s` with itself, row by row of the batch: entry (b, p, q) is s(b, p) · s(b, q).

  Grid point t = 4·i + j writes back the part inside the array of block (i, j): rows 256·i … of the middle axis
  and 256·j … of the last, each cut to 233 at block index 3. What it writes at (b, p', q') is the product of the
  first input block at (b, p') — s at (b, 256·i + p') — and the second at (b, q') — s at (b, 256·j + q'). The
  sixteen blocks cover the array, so the array ends at the outer product everywhere.
-/
import proofs.«135654_j33603824124046_1_alg».proof.Proof.KernelIdeal.Launch
import Idealize.ShloMosaic.Lib.Pipeline.Value

set_option maxRecDepth 16384

noncomputable section

namespace Cert.KernelIdeal.Outer

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (m : (ℓ : Loc nD τ sig) → Buf (Elt F) ℓ) (ρ : Dev nD → PrngReg)

/-- The outer product of a [64, 1001] array with itself along its second axis, per row of the first. -/
def outerOf (s : Vec F S64x1001 .f32) : Vec F S64x1001x1001 .f32 :=
  fun i => FloatOps.mulf (s (ix2 (i 0) (i 1))) (s (ix2 (i 0) (i 2)))

/-- The three index maps over the grid: none moves along the batch axis; the result's block index is
    (first input's, second input's); point t is (t / 4, t % 4). -/
theorem idx_facts : ∀ t : Fin cfg0.N, win0_0.index t 0 = 0 ∧ win0_1.index t 0 = 0 ∧ win0_2.index t 0 = 0
    ∧ win0_2.index t 1 = win0_0.index t 1 ∧ win0_2.index t 2 = win0_1.index t 1
    ∧ win0_2.index t 1 = t.val / 4 ∧ win0_2.index t 2 = t.val % 4 :=
  (by decide +kernel : ∀ t : Fin grid0.N, win0_0.index t 0 = 0 ∧ win0_1.index t 0 = 0 ∧ win0_2.index t 0 = 0
    ∧ win0_2.index t 1 = win0_0.index t 1 ∧ win0_2.index t 2 = win0_1.index t 1
    ∧ win0_2.index t 1 = t.val / 4 ∧ win0_2.index t 2 = t.val % 4)

/-- How much of the result's block is inside the array at each point: all 64 rows; 256 of the middle and last axes
    but 233 at block index 3. -/
theorem xsize_facts : ∀ t : Fin cfg0.N, win0_2.xsize (grid0.coords t) 0 = 64
    ∧ win0_2.xsize (grid0.coords t) 1 = (if t.val / 4 = 3 then 233 else 256)
    ∧ win0_2.xsize (grid0.coords t) 2 = (if t.val % 4 = 3 then 233 else 256) :=
  (by decide +kernel : ∀ t : Fin grid0.N, win0_2.xsize (grid0.coords t) 0 = 64
    ∧ win0_2.xsize (grid0.coords t) 1 = (if t.val / 4 = 3 then 233 else 256)
    ∧ win0_2.xsize (grid0.coords t) 2 = (if t.val % 4 = 3 then 233 else 256))

/-- The first input block's entry y is the state at (y₀, 256·(block index) + y₁). -/
theorem iblk0_eq (c : Dev nD) (t : Fin cfg0.N) (y : ((cfg0.win 0).xblock (cfg0.grid.coords t)).Idx) (i : S64x1001.Idx)
    (h0 : (i 0).val = (y 0).val) (h1 : (i 1).val = win0_0.index t 1 * 256 + (y 1).val) :
    iblk m c 0 t y = V m c main_v3 i := by
  show V m c main_v3 (((cfg0.win 0).blk t).view.emb y) = V m c main_v3 i
  refine congrArg _ (funext fun a => Fin.ext ?_)
  match a with
  | ⟨0, _⟩ =>
    show win0_0.index t 0 * 64 + 1 * (y 0).val = (i 0).val
    rw [(idx_facts t).1, h0]; omega
  | ⟨1, _⟩ =>
    show win0_0.index t 1 * 256 + 1 * (y 1).val = (i 1).val
    rw [h1]; omega

/-- The second input block's entry y is the state at (y₀, 256·(block index) + y₁). -/
theorem iblk1_eq (c : Dev nD) (t : Fin cfg0.N) (y : ((cfg0.win 1).xblock (cfg0.grid.coords t)).Idx) (i : S64x1001.Idx)
    (h0 : (i 0).val = (y 0).val) (h1 : (i 1).val = win0_1.index t 1 * 256 + (y 1).val) :
    iblk m c 1 t y = V m c main_v3 i := by
  show V m c main_v3 (((cfg0.win 1).blk t).view.emb y) = V m c main_v3 i
  refine congrArg _ (funext fun a => Fin.ext ?_)
  match a with
  | ⟨0, _⟩ =>
    show win0_1.index t 0 * 64 + 1 * (y 0).val = (i 0).val
    rw [(idx_facts t).2.1, h0]; omega
  | ⟨1, _⟩ =>
    show win0_1.index t 1 * 256 + 1 * (y 1).val = (i 1).val
    rw [h1]; omega

/-- The result buffer at any entry: the product of the input buffers' entries. -/
theorem outBlk_at (x0 x1 : Vec F S64x256 .f32) (j : S64x256x256.Idx) :
    outBlk x0 x1 j = FloatOps.mulf (x0 (ix2 (j 0) (j 1))) (x1 (ix2 (j 0) (j 2))) := by
  obtain ⟨b, p, q, rfl⟩ : ∃ (b : Fin 64) (p q : Fin 256), j = ix3 b p q := ⟨j 0, j 1, j 2, eq_ix3 j⟩
  exact outBlk_apply x0 x1 b p q

/-- What point t writes back is its block of the outer product of the state. -/
theorem flushed_eq (c : Dev nD) (t : Fin cfg0.N) :
    (dats m 0 c).flushed 2 t = ((cfg0.win 2).blk t).view.read (Elt F) (outerOf (V m c main_v3)) := by
  funext y
  obtain ⟨-, -, hi0, hi1, hi2, -, -⟩ := idx_facts t
  show (dats m 0 c).after 2 t ((cfg0.win 2).xinj (cfg0.grid.coords t) y) = outerOf (V m c main_v3) (((cfg0.win 2).blk t).view.emb y)
  rw [after_2, outBlk_at]
  unfold outerOf
  -- the entries of the two input blocks that the result entry y is made of
  let y0 : ((cfg0.win 0).xblock (cfg0.grid.coords t)).Idx := fun a => match a with
    | ⟨0, _⟩ => ⟨(y 0).val, (y 0).isLt⟩
    | ⟨1, _⟩ => ⟨(y 1).val, (y 1).isLt⟩
  let y1 : ((cfg0.win 1).xblock (cfg0.grid.coords t)).Idx := fun a => match a with
    | ⟨0, _⟩ => ⟨(y 0).val, (y 0).isLt⟩
    | ⟨1, _⟩ => ⟨(y 2).val, (y 2).isLt⟩
  have e0 : ix2 ((cfg0.win 2).xinj (cfg0.grid.coords t) y 0) ((cfg0.win 2).xinj (cfg0.grid.coords t) y 1)
      = (cfg0.win 0).xinj (cfg0.grid.coords t) y0 := funext fun a => by
    match a with | ⟨0, _⟩ => rfl | ⟨1, _⟩ => rfl
  have e1 : ix2 ((cfg0.win 2).xinj (cfg0.grid.coords t) y 0) ((cfg0.win 2).xinj (cfg0.grid.coords t) y 2)
      = (cfg0.win 1).xinj (cfg0.grid.coords t) y1 := funext fun a => by
    match a with | ⟨0, _⟩ => rfl | ⟨1, _⟩ => rfl
  refine congrArg₂ FloatOps.mulf
    ((congrArg (staged m c 0 t (pad0 0)) e0).trans ((staged_xinj m c 0 t (pad0 0) y0).trans (iblk0_eq m c t y0 _ ?_ ?_)))
    ((congrArg (staged m c 1 t (pad0 1)) e1).trans ((staged_xinj m c 1 t (pad0 1) y1).trans (iblk1_eq m c t y1 _ ?_ ?_)))
  · show win0_2.index t 0 * 64 + 1 * (y 0).val = (y 0).val
    rw [hi0]; omega
  · show win0_2.index t 1 * 256 + 1 * (y 1).val = win0_0.index t 1 * 256 + (y 1).val
    rw [hi1]; omega
  · show win0_2.index t 0 * 64 + 1 * (y 0).val = (y 0).val
    rw [hi0]; omega
  · show win0_2.index t 2 * 256 + 1 * (y 2).val = win0_1.index t 1 * 256 + (y 2).val
    rw [hi2]; omega

/-- An index of the result array lies in point t's block iff, on each axis, it lies in the block's part inside
    the array. -/
theorem mem_blk (t : Fin cfg0.N) (i : S64x1001x1001.Idx) :
    i ∈ ((cfg0.win 2).blk t).view.set ↔ ∀ a, win0_2.index t a * win0_2.size a ≤ (i a).val
      ∧ (i a).val < win0_2.index t a * win0_2.size a + win0_2.xsize (grid0.coords t) a := by
  show i ∈ ((View.whole main_v4).slice (win0_2.rect t)).set ↔ _
  rw [View.set_slice_whole, Rect.mem_set_unit]

/-- Every index of the result array is in the block of the point (p / 256, q / 256). -/
theorem cover (i : S64x1001x1001.Idx) :
    ∃ t : Fin cfg0.N, (cfg0.win 2).flush t = true ∧ i ∈ ((cfg0.win 2).blk t).view.set := by
  have h0 : (i 0).val < 64 := (i 0).isLt
  have h1 : (i 1).val < 1001 := (i 1).isLt
  have h2 : (i 2).val < 1001 := (i 2).isLt
  have hN : cfg0.N = 16 := N_0
  have ht : 4 * ((i 1).val / 256) + (i 2).val / 256 < cfg0.N := by omega
  refine ⟨⟨4 * ((i 1).val / 256) + (i 2).val / 256, ht⟩, flush0_2 _, ?_⟩
  rw [mem_blk]
  obtain ⟨-, -, hi0, -, -, hi1, hi2⟩ := idx_facts ⟨4 * ((i 1).val / 256) + (i 2).val / 256, ht⟩
  obtain ⟨hx0, hx1, hx2⟩ := xsize_facts ⟨4 * ((i 1).val / 256) + (i 2).val / 256, ht⟩
  intro a
  match a with
  | ⟨0, _⟩ =>
    show win0_2.index _ 0 * 64 ≤ (i 0).val ∧ (i 0).val < win0_2.index _ 0 * 64 + win0_2.xsize _ 0
    rw [hi0, hx0]; omega
  | ⟨1, _⟩ =>
    show win0_2.index _ 1 * 256 ≤ (i 1).val ∧ (i 1).val < win0_2.index _ 1 * 256 + win0_2.xsize _ 1
    rw [hi1, hx1]; dsimp only; split <;> omega
  | ⟨2, _⟩ =>
    show win0_2.index _ 2 * 256 ≤ (i 2).val ∧ (i 2).val < win0_2.index _ 2 * 256 + win0_2.xsize _ 2
    rw [hi2, hx2]; dsimp only; split <;> omega

/-- The result array after the run: the outer product of the state. -/
theorem final (c : Dev nD) : (dats m 0 c).arrAt 2 cfg0.N = outerOf (V m c main_v3) :=
  (dats m 0 c).arrAt_eq_of_cover 2 (outerOf (V m c main_v3)) (fun t _ => flushed_eq m c t) cover

/-- The run, with the result array named. -/
theorem run_value : θ_run defs (onTc (τ := τ) (main (F := F))) ⟨m, fun _ => 0, ρ⟩ (fun r => ∀ c : Dev nD,
      r.2.mem ((c.tc : Thread nD τ).loc main_v4) = outerOf (V m c main_v3)
      ∧ r.2.mem ((c.tc : Thread nD τ).loc main_arg0) = m ((c.tc : Thread nD τ).loc main_arg0)) :=
  (θ_run defs _ _).mono (fun _ h c =>
    ⟨((h c).1 2).trans (final m c),
     ((h c).2 main_arg0 (Pipeline.mem_restRefs_of main_arg0 rfl (by decide))).trans (V_main_arg0 m c)⟩) (run_main m ρ)

end Cert.KernelIdeal.Outer

end
-- ==== Proof.RefSide.lean ====
/-
  The reference, read at an index (any float instance): its result at (b, p, q) is the product of its normalized
  state at (b, p) and at (b, q). The reference builds the two factors by viewing the state as [64, 1001, 1] and as
  [64, 1, 1001] and repeating each over the missing axis; read at an index, those steps only rename coordinates.
-/
import proofs.«135654_j33603824124046_1_alg».proof.Defs
import proofs.«135654_j33603824124046_1_alg».proof.Proof.Gen.ReferenceIdeal.Run
import proofs.«135654_j33603824124046_1_alg».proof.Proof.Gen.ReferenceIdeal.Read
import Idealize.ShloMosaic.Lib.ValueIdx
import Idealize.ShloMosaic.Lib.Pipeline.Value

noncomputable section

namespace Cert.ReferenceIdeal.Outer

open Cert.ReferenceIdeal Cert.ReferenceIdeal.Gen Cert.ReferenceIdeal.Read
open Idealize.ShloMosaic Idealize.ShloMosaic.ValueIdx

variable {F : FTy → Type} [FloatOps F]

/-- The reference's result at (b, p, q): the product of its state at (b, p) and at (b, q). -/
theorem result_apply (x0 : (⟨S64x784, .f32⟩ : BufTy).Contents (Elt F)) (i : S64x1001x1001.Idx) :
    val_main_v8 (F := F) x0 i
      = FloatOps.mulf (val_main_v3 (F := F) x0 (ix2 (i 0) (i 1))) (val_main_v3 (F := F) x0 (ix2 (i 0) (i 2))) := by
  have e1 : idx_main_v4 (idx_main_v6 i) = ix2 (i 0) (i 1) :=
    funext fun a => Fin.ext (by match a with | ⟨0, _⟩ => rfl | ⟨1, _⟩ => rfl)
  have e2 : idx_main_v5 (idx_main_v7 i) = ix2 (i 0) (i 2) :=
    funext fun a => Fin.ext (by match a with | ⟨0, _⟩ => rfl | ⟨1, _⟩ => rfl)
  rw [val_main_v8_apply, val_main_v6_apply, val_main_v7_apply, val_main_v4_apply, val_main_v5_apply, e1, e2]
  rfl

end Cert.ReferenceIdeal.Outer

end
-- ==== Proof.Bridge.lean ====
/-
  The two idealized programs compute the same array (extended reals).

  Both programs build the same normalized state `s` from the argument by the same host operations, in the same order:
  the kernel's program before it launches its kernel, the reference as its first ten operations. The kernel's
  result is the outer product of `s` per batch row (read off the pipeline's write-backs), and the reference's
  result, read at an index, is that product too. No law of arithmetic is used: the two sides are the same product
  of the same two factors, so nothing depends on the inputs being finite.
-/
import proofs.«135654_j33603824124046_1_alg».proof.Proof.KernelIdeal.Value
import proofs.«135654_j33603824124046_1_alg».proof.Proof.RefSide

set_option maxRecDepth 16384

noncomputable section

namespace Cert.KernelIdeal.Outer

open Cert.KernelIdeal Cert.KernelIdeal.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-- The state the kernel is launched on is the reference's state of the same argument: the same operations. -/
theorem state_eq (c : Dev nD) :
    (V m c main_v3 : S64x1001.Idx → Elt F .f32)
      = Cert.ReferenceIdeal.Read.val_main_v3 (F := F) (m ((c : Thread nD τ).loc main_arg0)) := by
  dsimp only [V]
  simp only [hostOps0, hostOps0_1, hostOps0_2, hostOps0_3, List.flatten_cons, List.flatten_nil, List.append_nil,
    List.cons_append, List.nil_append]
  after_results
  rfl

/-- The reference's result of an argument is the outer product of the state the kernel is launched on with that
    argument. -/
theorem reference_eq (c : Dev nD) :
    Cert.ReferenceIdeal.Read.val_main_v8 (F := F) (m ((c : Thread nD τ).loc main_arg0)) = outerOf (V m c main_v3) := by
  funext i
  rw [Cert.ReferenceIdeal.Outer.result_apply, ← state_eq m c]
  rfl

end Cert.KernelIdeal.Outer

end
-- ==== Proof.lean ====
/-
  The certificate of the outer-product kernel against its reference.

  Both programs take x : f32[64, 784], pad it with zeros to [64, 1001], divide each row by its Euclidean norm, and
  return, per row b, the matrix of products s(b, p) · s(b, q) — an array [64, 1001, 1001]. The reference does all of
  it with host operations; the kernel's program does the normalization on the host and the products in one kernel
  over a 4 × 4 grid of 256 × 256 blocks, reading the normalized array through two windows (rows of the product by
  the first, columns by the second), the blocks of index 3 overhanging the arrays' ends.

  The frames of the two kernel programs are the pipeline run with the normalized array's share dealt in halves to
  the two windows (Proof/Kernel/Launch.lean at the word level, Proof/KernelIdeal/Launch.lean at the extended
  reals). The reference's frame is its run. The idealization rewrote nothing. The value claim: the kernel's result
  array is the outer product of the normalized state (Proof/KernelIdeal/Value.lean), the reference's result read at
  an index is that same product of the same state (Proof/RefSide.lean, Proof/Bridge.lean).
-/
import proofs.«135654_j33603824124046_1_alg».proof.Defs
import proofs.«135654_j33603824124046_1_alg».proof.Proof.Gen.Kernel
import proofs.«135654_j33603824124046_1_alg».proof.Proof.Gen.KernelIdeal
import proofs.«135654_j33603824124046_1_alg».proof.Proof.Gen.ReferenceIdeal
import proofs.«135654_j33603824124046_1_alg».proof.Proof.Gen.Pre_finite_inputs
import proofs.«135654_j33603824124046_1_alg».proof.Proof.Kernel.Launch
import proofs.«135654_j33603824124046_1_alg».proof.Proof.Bridge
import Idealize.ShloMosaic.Adequacy
import Idealize.ShloMosaic.Init

noncomputable section

namespace Cert.Proof

open Idealize.ShloMosaic Idealize.SL.Sem

/-- The word-level program runs and leaves its argument unchanged. -/
theorem frame_kernel : Cert.frame_Kernel (hKernel := Cert.Kernel.Gen.facts) (hPre_finite_inputs := Cert.Pre_finite_inputs.Gen.facts) :=
  fun m ρ _ => Cert.Kernel.Outer.frame m ρ

/-- So does the idealized program. -/
theorem frame_kernelIdeal : Cert.frame_KernelIdeal (hKernelIdeal := Cert.KernelIdeal.Gen.facts) (hPre_finite_inputs := Cert.Pre_finite_inputs.Gen.facts) :=
  fun m ρ _ => Cert.KernelIdeal.Outer.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the argument, both idealized programs end with the outer product of the normalized
    state as their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Outer.outerOf (Cert.KernelIdeal.Outer.V m c Cert.KernelIdeal.main_v3),
    Cert.KernelIdeal.Outer.run_value m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v8_eq _).trans (Cert.KernelIdeal.Outer.reference_eq m c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
